-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S8192x4096 : Shape := ⟨2, ![8192, 4096]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_

variable [Facts]

def fn {F : FTy → Type} [FloatOps F] (main_arg0 : FVec F S4096x8192 .f32) (main_arg1 : FVec F S8192x4096 .f32) (main_arg2 : FVec F S8192x4096 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  main_v13
-- ==== Kernel.lean ====
abbrev S4096x8192 : Shape := ⟨2, ![4096, 8192]⟩
abbrev S8192x4096 : Shape := ⟨2, ![8192, 4096]⟩
abbrev S4096x4096 : Shape := ⟨2, ![4096, 4096]⟩
abbrev S512x1024 : Shape := ⟨2, ![512, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .f32⟩
  | .hbm, ⟨1, _⟩ => ⟨S8192x4096, .f32⟩
  | .hbm, ⟨2, _⟩ => ⟨S8192x4096, .f32⟩
  | .hbm, ⟨3, _⟩ => ⟨S4096x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x8192.size a
  hwx0_0 : ∀ i : grid0.Coords, EltTy.bits .f32 = 32 ∨ (Rect.block (s := S4096x8192) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x4096.size a
  hwx0_1 : ∀ i : grid0.Coords, EltTy.bits .f32 = 32 ∨ (Rect.block (s := S8192x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x4096.size a
  hwx0_3 : ∀ i : grid0.Coords, EltTy.bits .f32 = 32 ∨ (Rect.block (s := S4096x4096) S512x1024.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x8192 : Shape := ⟨2, ![4096, 8192]⟩
abbrev S8192x4096 : Shape := ⟨2, ![8192, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S4096x4096, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S4096x8192_S8192x4096_S4096x4096_1_0_0_1_n_n_wf : DotDims.WF S4096x8192 S8192x4096 S4096x4096 [1] [0] [0] [1] [] []

variable [Facts₀]

def dot_S4096x8192_S8192x4096_S4096x4096_1_0_0_1_n_n : DotDims S4096x8192 S8192x4096 S4096x4096 where
  lhsContracting := [1]
  rhsContracting := [0]
  lhsNonContracting := [0]
  rhsNonContracting := [1]
  lhsBatch := []
  rhsBatch := []
  wf := dot_S4096x8192_S8192x4096_S4096x4096_1_0_0_1_n_n_wf

class Facts : Prop extends Facts₀ where

variable [Facts]
-- ==== Proof.AccumulatorStep.lean ====
/-
  What one grid point leaves in the accumulator, and what the last point of a run hands to the output block.

  The body does the same thing at every grid point: it adds, into the 512 × 1024 accumulator, the product of the
  point's block of `x` with the entrywise product of the point's blocks of `mask` and `w` (the update, below
  `k0_pay2` of the three blocks and of what the accumulator held). The three control cases differ only around it:
    * at the first point of a run (k = 0) the accumulator is first stored whole with zeros (`k0_pay1`), and the update
      reads those zeros back, so what the point before left does not enter;
    * at the points in between (0 < k < 7) the update reads what the point before left;
    * at the last point (k = 7) it does the same, and then copies the updated accumulator into the output block.
  Each statement below reads the stores a case's run found back as one value: every store covers its whole buffer at
  zero offsets, so the last store's payload is what the buffer holds, and a load after a store reads that store's payload.
-/
import proofs.«172079_j72696616452696_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

/-- The offsets `[0, 0]` of every load and store of the body are the zero offsets. -/
theorem zero_offsets : (![0, 0] : Fin 2 → Nat) = fun _ => 0 := funext fun a => by fin_cases a <;> rfl

/-- First point of a run: the accumulator ends at the update over the ZERO block, whatever it held before. -/
theorem first_point (c : Dev nD) (i : grid0.Coords) (a3 : Memref sig .tc .vmem S512x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S512x1024 .f32) (h6 : a6.IsWhole) (a7 : Memref sig .tc .vmem S512x1024 .f32) (h7 : a7.IsWhole)
    (hc0 : cond0_0 i) (hc1 : ¬cond0_1 i) (x0 : Vec F S512x1024 .f32) (x1 x2 : Vec F S1024x1024 .f32) :
    sout0_A_0 c i a3 h3 a4 h4 a5 h5 a6 h6 a7 h7 hc0 hc1 x0 x1 x2 = k0_pay2 x0 x1 x2 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S512x1024) zero_offsets, View.readCov_unit_zero (S := S512x1024) _ zero_offsets]
  simp only [View.readAt_eq_ld, h3.read_unread, h4.read_unread, h5.read_unread,
    View.ld_unit_zero (S := S512x1024) zero_offsets, View.ld_unit_zero (S := S1024x1024) zero_offsets]

/-- A point in the middle of a run: the accumulator ends at the update over what the point before left (`acc`). -/
theorem middle_point (c : Dev nD) (i : grid0.Coords) (a3 : Memref sig .tc .vmem S512x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S512x1024 .f32) (h6 : a6.IsWhole) (a7 : Memref sig .tc .vmem S512x1024 .f32) (h7 : a7.IsWhole)
    (hc0 : ¬cond0_0 i) (hc1 : ¬cond0_1 i) (x0 : Vec F S512x1024 .f32) (x1 x2 : Vec F S1024x1024 .f32)
    (acc : Vec F S512x1024 .f32) :
    sout0_B_0 c i a3 h3 a4 h4 a5 h5 a6 h6 a7 h7 hc0 hc1 x0 x1 x2 acc = k0_pay2 x0 x1 x2 acc := by
  unfold sout0_B_0
  rw [View.read_writes_eq_canon _ _ _ (scover0_B_0 c i a3 h3 a4 h4 a5 h5 a6 h6 a7 h7 hc0 hc1 x0 x1 x2 acc)]
  unfold kernelRun0_B
  dsimp only
  sl_unfold_words
  rw [View.canon_unit_zero (S := S512x1024) zero_offsets]
  simp only [View.readAt_eq_ld, h3.read_unread, h4.read_unread, h5.read_unread, h7.read_unread,
    View.ld_unit_zero (S := S512x1024) zero_offsets, View.ld_unit_zero (S := S1024x1024) zero_offsets]

/-- The last point of a run: the accumulator ends at the update over what the point before left … -/
theorem last_point (c : Dev nD) (i : grid0.Coords) (a3 : Memref sig .tc .vmem S512x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S512x1024 .f32) (h6 : a6.IsWhole) (a7 : Memref sig .tc .vmem S512x1024 .f32) (h7 : a7.IsWhole)
    (hc0 : ¬cond0_0 i) (hc1 : cond0_1 i) (x0 : Vec F S512x1024 .f32) (x1 x2 : Vec F S1024x1024 .f32)
    (acc : Vec F S512x1024 .f32) :
    sout0_C_0 c i a3 h3 a4 h4 a5 h5 a6 h6 a7 h7 hc0 hc1 x0 x1 x2 acc = k0_pay2 x0 x1 x2 acc := by
  unfold sout0_C_0
  rw [View.read_writes_eq_canon _ _ _ (scover0_C_0 c i a3 h3 a4 h4 a5 h5 a6 h6 a7 h7 hc0 hc1 x0 x1 x2 acc)]
  unfold kernelRun0_C
  dsimp only
  sl_unfold_words
  rw [View.canon_unit_zero (S := S512x1024) zero_offsets]
  simp only [View.readAt_eq_ld, h3.read_unread, h4.read_unread, h5.read_unread, h7.read_unread,
    View.ld_unit_zero (S := S512x1024) zero_offsets, View.ld_unit_zero (S := S1024x1024) zero_offsets]

/-- … and the output block is stored with that same updated accumulator, read back after the update's store. -/
theorem last_point_output (c : Dev nD) (i : grid0.Coords) (a3 : Memref sig .tc .vmem S512x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S512x1024 .f32) (h6 : a6.IsWhole) (a7 : Memref sig .tc .vmem S512x1024 .f32) (h7 : a7.IsWhole)
    (hc0 : ¬cond0_0 i) (hc1 : cond0_1 i) (x0 : Vec F S512x1024 .f32) (x1 x2 : Vec F S1024x1024 .f32)
    (acc : Vec F S512x1024 .f32) :
    out0_C_3 c i a3 h3 a4 h4 a5 h5 a6 h6 a7 h7 hc0 hc1 x0 x1 x2 acc = k0_pay2 x0 x1 x2 acc := by
  unfold out0_C_3
  rw [View.read_writes_eq_canon _ _ _ (cover0_C_3 c i a3 h3 a4 h4 a5 h5 a6 h6 a7 h7 hc0 hc1 x0 x1 x2 acc)]
  unfold kernelRun0_C
  dsimp only
  sl_unfold_words
  rw [View.canon_unit_zero (S := S512x1024) zero_offsets, View.readCov_unit_zero (S := S512x1024) _ zero_offsets]
  simp only [View.readAt_eq_ld, h3.read_unread, h4.read_unread, h5.read_unread, h7.read_unread,
    View.ld_unit_zero (S := S512x1024) zero_offsets, View.ld_unit_zero (S := S1024x1024) zero_offsets]

end Cert.KernelIdeal.Acc

end
-- ==== Proof.BlockProduct.lean ====
/-
  The update read at one entry of the accumulator, over the extended reals.

  At `Ideal` a change of float format is the identity, so the two narrowings to bf16 drop out; the matrix unit's
  product into a zero accumulator is the plain sum over the contraction axis of the block (length 1024); and the
  entrywise operations read through the index. So at entry `(p, q)` of the 512 × 1024 accumulator the update is
      acc[p, q] + ∑ kk < 1024, xblk[p, kk] · (mblk[kk, q] · wblk[kk, q]).
  The zero block the first point of a run stores reads `0` at every entry.
-/
import proofs.«172079_j72696616452696_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen

/-! The block product's operand indices at an output entry `j` and a contraction position `s`: the left operand is
    read at row `j 0`, column `s`; the right at row `s`, column `j 1`. -/

theorem left_row (j : S512x1024.Idx) (s : dot_S512x1024_S1024x1024_S512x1024_1_0_0_1_n_n.contr.Idx) :
    (dot_S512x1024_S1024x1024_S512x1024_1_0_0_1_n_n.lhsIdx j s 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem left_col (j : S512x1024.Idx) (s : dot_S512x1024_S1024x1024_S512x1024_1_0_0_1_n_n.contr.Idx) :
    (dot_S512x1024_S1024x1024_S512x1024_1_0_0_1_n_n.lhsIdx j s 1).val = (s ⟨0, by decide⟩).val :=
  dot_S512x1024_S1024x1024_S512x1024_1_0_0_1_n_n.lhsIdx_val_of_single rfl j s
theorem right_row (j : S512x1024.Idx) (s : dot_S512x1024_S1024x1024_S512x1024_1_0_0_1_n_n.contr.Idx) :
    (dot_S512x1024_S1024x1024_S512x1024_1_0_0_1_n_n.rhsIdx j s 0).val = (s ⟨0, by decide⟩).val :=
  dot_S512x1024_S1024x1024_S512x1024_1_0_0_1_n_n.rhsIdx_val_of_single rfl j s
theorem right_col (j : S512x1024.Idx) (s : dot_S512x1024_S1024x1024_S512x1024_1_0_0_1_n_n.contr.Idx) :
    (dot_S512x1024_S1024x1024_S512x1024_1_0_0_1_n_n.rhsIdx j s 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The block product into a zero accumulator at an entry: the sum over the block's contraction axis. -/
theorem block_product_apply {φ₁ φ₂ : FTy} (a : FVec Ideal S512x1024 φ₁) (b : FVec Ideal S1024x1024 φ₂) (p : Fin 512) (q : Fin 1024) :
    matmul dot_S512x1024_S1024x1024_S512x1024_1_0_0_1_n_n none a b (constant S512x1024 .f32 0x00000000#32) (ix2 p q)
      = ∑ kk : Fin 1024, a (ix2 p kk) * b (ix2 kk q) := by
  simp only [matmul]
  rw [Ideal.matmul_constant_zero_apply, ← Equiv.sum_comp (contrEquiv1 dot_S512x1024_S1024x1024_S512x1024_1_0_0_1_n_n 1024 rfl rfl).symm]
  refine Finset.sum_congr rfl fun kk _ => ?_
  have hk := contrEquiv1_symm_val dot_S512x1024_S1024x1024_S512x1024_1_0_0_1_n_n 1024 rfl rfl kk
  have el : dot_S512x1024_S1024x1024_S512x1024_1_0_0_1_n_n.lhsIdx (ix2 p q) ((contrEquiv1 dot_S512x1024_S1024x1024_S512x1024_1_0_0_1_n_n 1024 rfl rfl).symm kk) = ix2 p kk := funext fun a => Fin.ext (by
    match a with
    | ⟨0, _⟩ => exact left_row _ _
    | ⟨1, _⟩ => exact (left_col _ _).trans hk)
  have er : dot_S512x1024_S1024x1024_S512x1024_1_0_0_1_n_n.rhsIdx (ix2 p q) ((contrEquiv1 dot_S512x1024_S1024x1024_S512x1024_1_0_0_1_n_n 1024 rfl rfl).symm kk) = ix2 kk q := funext fun a => Fin.ext (by
    match a with
    | ⟨0, _⟩ => exact (right_row _ _).trans hk
    | ⟨1, _⟩ => exact right_col _ _)
  rw [el, er]

/-- The update at an entry. -/
theorem update_apply (x0 : Vec Ideal S512x1024 .f32) (x1 x2 : Vec Ideal S1024x1024 .f32) (acc : Vec Ideal S512x1024 .f32)
    (p : Fin 512) (q : Fin 1024) :
    k0_pay2 (F := Ideal) x0 x1 x2 acc (ix2 p q)
      = acc (ix2 p q) + ∑ kk : Fin 1024, x0 (ix2 p kk) * (x1 (ix2 kk q) * x2 (ix2 kk q)) := by
  unfold k0_pay2
  rw [shapeCast_self, addf_apply, block_product_apply]
  rfl

/-- The zero block at an entry. -/
theorem zero_block_apply (j : S512x1024.Idx) : k0_pay1 (F := Ideal) j = 0 := by
  unfold k0_pay1
  rw [shapeCast_self]
  show Ideal.ofBits .f32 0x00000000#32 = 0
  exact Ideal.ofBits_zero_f32

end Cert.KernelIdeal.Acc

end
-- ==== Proof.MaskedLinear.lean ====
/-
  The mathematics both programs compute, and the one law that joins their two arrangements.

  Over the extended reals the masked linear layer is, entry by entry,
      y[r, c] = ∑ k < 8192, x[r, k] · (mask[k, c] · w[k, c]).
  The reference forms the product mask · w once and contracts over all of k in one sum. The kernel cuts the
  contraction axis into 8 slices of 1024 and adds the slices' partial sums one after the other into an accumulator
  that starts at zero. Addition of extended reals is commutative and associative (they form a commutative monoid,
  infinities included), so a sum over 8192 indices is the sum over the 8 slices of the sums over each slice; no
  finiteness of the entries is needed for that.
-/
import Idealize.ShloMosaic.PureOps.Ideal
import Idealize.ShloMosaic.Lib.ValueIdx

noncomputable section

open scoped BigOperators

namespace Cert.MaskedLinear

open Idealize.ShloMosaic Idealize.ShloMosaic.ValueIdx

/-- The masked product at one output entry: row `r` of `x` against column `c` of `mask · w`, summed over the
    whole contraction axis. -/
def maskedLinear (x : FVec Ideal ⟨2, ![4096, 8192]⟩ .f32) (mk w : FVec Ideal ⟨2, ![8192, 4096]⟩ .f32) :
    FVec Ideal ⟨2, ![4096, 4096]⟩ .f32 :=
  fun i => ∑ k : Fin 8192, x (ix2 (n0 := 4096) (n1 := 8192) (i 0) k)
    * (mk (ix2 (n0 := 8192) (n1 := 4096) k (i 1)) * w (ix2 (n0 := 8192) (n1 := 4096) k (i 1)))

/-- A sum over `J · n` consecutive indices is the sum, over the `J` consecutive slices of length `n`, of each
    slice's sum: the index `n · s + kk` runs over slice `s`. In any commutative monoid. -/
theorem sum_slices {M : Type*} [AddCommMonoid M] (J n : ℕ) (g : ℕ → M) :
    ∑ s ∈ Finset.range J, ∑ kk : Fin n, g (n * s + kk.val) = ∑ k : Fin (J * n), g k.val := by
  rw [← Equiv.sum_comp finProdFinEquiv (fun k : Fin (J * n) => g k.val), Fintype.sum_prod_type,
    ← Fin.sum_univ_eq_sum_range (fun s => ∑ kk : Fin n, g (n * s + kk.val)) J]
  refine Finset.sum_congr rfl fun a _ => Finset.sum_congr rfl fun b _ => ?_
  rw [finProdFinEquiv_apply_val, Nat.add_comm]

/-- The contraction axis of length 8192 as 8 slices of 1024. -/
theorem sum_8192_as_slices {M : Type*} [AddCommMonoid M] (g : ℕ → M) :
    ∑ s ∈ Finset.range 8, ∑ kk : Fin 1024, g (1024 * s + kk.val) = ∑ k : Fin 8192, g k.val :=
  sum_slices 8 1024 g

end Cert.MaskedLinear

end
-- ==== Proof.KernelValue.lean ====
/-
  The kernel's result array is the masked linear layer of the specification.

  The grid is 8 × 4 × 8, the last coordinate fastest: point `t` works on row tile `t / 32` (512 rows), column tile
  `t / 8 % 4` (1024 columns) and contraction slice `t % 8` (1024 indices). Its block of `x` is rows
  `512·(t/32) + p`, columns `1024·(t%8) + kk`; its blocks of `mask` and `w` are rows `1024·(t%8) + kk`, columns
  `1024·(t/8%4) + q`. The eight points `8d, …, 8d + 7` of one run share the row tile and the column tile and walk the
  eight slices, so after the run's last point the accumulator holds, at entry `(p, q)`,
      0 + ∑ s < 8, ∑ kk < 1024, x[R, 1024 s + kk] · (mask[1024 s + kk, C] · w[1024 s + kk, C]),   R = 512·(t/32) + p,  C = 1024·(t/8%4) + q,
  which is the whole contraction `∑ k < 8192` of the specification at `(R, C)`. Only the last point of a run writes its
  output block back, and those 32 blocks tile the 4096 × 4096 result.
-/
import proofs.«172079_j72696616452696_1_alg».proof.Proof.Gen.KernelIdeal.Value
import proofs.«172079_j72696616452696_1_alg».proof.Proof.AccumulatorStep
import proofs.«172079_j72696616452696_1_alg».proof.Proof.BlockProduct
import proofs.«172079_j72696616452696_1_alg».proof.Proof.MaskedLinear

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.KernelIdeal.Value Cert.MaskedLinear

variable (m : (ℓ : Loc nD τ sig) → Buf (Elt Ideal) ℓ) (ρ : Dev nD → PrngReg)

/-! ## Which tile and slice a grid point works on -/

/-- The four windows' block indices at point `t`, decided over the 256 points: the row tile is `t / 32`, the column
    tile `t / 8 % 4`, the contraction slice `t % 8`. -/
theorem block_indices : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = t.val % 8 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-! ## The arrays and the blocks at their literal types -/

/-- The three argument arrays as the region finds them. -/
abbrev xarr (c : Dev nD) : Vec Ideal S4096x8192 .f32 := V m c main_arg0
abbrev marr (c : Dev nD) : Vec Ideal S8192x4096 .f32 := V m c main_arg1
abbrev warr (c : Dev nD) : Vec Ideal S8192x4096 .f32 := V m c main_arg2
/-- The three blocks point `t` loads. -/
abbrev xblk (c : Dev nD) (t : Fin cfg0.N) : Vec Ideal S512x1024 .f32 := iblk m c 0 t
abbrev mblk (c : Dev nD) (t : Fin cfg0.N) : Vec Ideal S1024x1024 .f32 := iblk m c 1 t
abbrev wblk (c : Dev nD) (t : Fin cfg0.N) : Vec Ideal S1024x1024 .f32 := iblk m c 2 t

/-! ## The argument arrays by natural row and column -/

/-- `x[r, k]` (zero outside the array: those values are never used). -/
def xAt (c : Dev nD) (r k : ℕ) : EReal :=
  if h : r < 4096 ∧ k < 8192 then xarr m c (ix2 ⟨r, h.1⟩ ⟨k, h.2⟩) else 0

/-- `mask[k, col] · w[k, col]` (zero outside the arrays). -/
def mwAt (c : Dev nD) (k col : ℕ) : EReal :=
  if h : k < 8192 ∧ col < 4096 then
    marr m c (ix2 ⟨k, h.1⟩ ⟨col, h.2⟩) * warr m c (ix2 ⟨k, h.1⟩ ⟨col, h.2⟩)
  else 0

/-! ## The blocks a point loads, entry by entry -/

/-- The block of `x` at point `t`. -/
theorem x_block_apply (c : Dev nD) (t : Fin cfg0.N) (p : Fin 512) (kk : Fin 1024) :
    xblk m c t (ix2 p kk) = xAt m c (512 * (t.val / 32) + p.val) (1024 * (t.val % 8) + kk.val) := by
  have hN : t.val < 256 := lt_of_lt_of_eq t.isLt (show cfg0.N = 256 from N_0)
  obtain ⟨e0, e1, -⟩ := block_indices t
  have hp := p.isLt
  have hkk := kk.isLt
  have hr : 512 * (t.val / 32) + p.val < 4096 := by omega
  have hk : 1024 * (t.val % 8) + kk.val < 8192 := by omega
  unfold xAt
  rw [dif_pos ⟨hr, hk⟩]
  show iblk m c 0 t (ix2 p kk) = V m c main_arg0 _
  unfold iblk
  rw [View.read_apply]
  show V m c main_arg0 _ = V m c main_arg0 _
  congr 1
  funext a
  apply Fin.ext
  match a with
  | ⟨0, _⟩ => show win0_0.index t (0 : Fin 2) * 512 + 1 * p.val = 512 * (t.val / 32) + p.val; omega
  | ⟨1, _⟩ => show win0_0.index t (1 : Fin 2) * 1024 + 1 * kk.val = 1024 * (t.val % 8) + kk.val; omega

/-- The blocks of `mask` and `w` at point `t`, multiplied entry by entry. -/
theorem mw_block_apply (c : Dev nD) (t : Fin cfg0.N) (kk : Fin 1024) (q : Fin 1024) :
    mblk m c t (ix2 kk q) * wblk m c t (ix2 kk q)
      = mwAt m c (1024 * (t.val % 8) + kk.val) (1024 * (t.val / 8 % 4) + q.val) := by
  have hN : t.val < 256 := lt_of_lt_of_eq t.isLt (show cfg0.N = 256 from N_0)
  obtain ⟨-, -, e2, e3, e4, e5, -⟩ := block_indices t
  have hq := q.isLt
  have hkk := kk.isLt
  have hk : 1024 * (t.val % 8) + kk.val < 8192 := by omega
  have hc : 1024 * (t.val / 8 % 4) + q.val < 4096 := by omega
  unfold mwAt
  rw [dif_pos ⟨hk, hc⟩]
  have e1 : mblk m c t (ix2 kk q) = marr m c (ix2 ⟨1024 * (t.val % 8) + kk.val, hk⟩ ⟨1024 * (t.val / 8 % 4) + q.val, hc⟩) := by
    show iblk m c 1 t (ix2 kk q) = V m c main_arg1 _
    unfold iblk
    rw [View.read_apply]
    show V m c main_arg1 _ = V m c main_arg1 _
    congr 1
    funext a
    apply Fin.ext
    match a with
    | ⟨0, _⟩ => show win0_1.index t (0 : Fin 2) * 1024 + 1 * kk.val = 1024 * (t.val % 8) + kk.val; omega
    | ⟨1, _⟩ => show win0_1.index t (1 : Fin 2) * 1024 + 1 * q.val = 1024 * (t.val / 8 % 4) + q.val; omega
  have e2 : wblk m c t (ix2 kk q) = warr m c (ix2 ⟨1024 * (t.val % 8) + kk.val, hk⟩ ⟨1024 * (t.val / 8 % 4) + q.val, hc⟩) := by
    show iblk m c 2 t (ix2 kk q) = V m c main_arg2 _
    unfold iblk
    rw [View.read_apply]
    show V m c main_arg2 _ = V m c main_arg2 _
    congr 1
    funext a
    apply Fin.ext
    match a with
    | ⟨0, _⟩ => show win0_2.index t (0 : Fin 2) * 1024 + 1 * kk.val = 1024 * (t.val % 8) + kk.val; omega
    | ⟨1, _⟩ => show win0_2.index t (1 : Fin 2) * 1024 + 1 * q.val = 1024 * (t.val / 8 % 4) + q.val; omega
  rw [e1, e2]

/-! ## What one point adds, and the accumulator's step -/

/-- What point `n` adds at entry `i` of the accumulator: its row tile's rows of `x` against its column tile's columns
    of `mask · w`, summed over its contraction slice. -/
def addend (c : Dev nD) (n : ℕ) (i : S512x1024.Idx) : EReal :=
  ∑ kk : Fin 1024, xAt m c (512 * (n / 32) + (i 0).val) (1024 * (n % 8) + kk.val)
    * mwAt m c (1024 * (n % 8) + kk.val) (1024 * (n / 8 % 4) + (i 1).val)

/-- The update at point `t`, over an accumulator holding `acc`: entry by entry, `acc` plus the point's addend. -/
theorem update_at_point (c : Dev nD) (t : Fin cfg0.N) (acc : Vec Ideal S512x1024 .f32) (i : S512x1024.Idx) :
    k0_pay2 (F := Ideal) (xblk m c t) (mblk m c t) (wblk m c t) acc i = acc i + addend m c t.val i := by
  obtain ⟨p, q, rfl⟩ : ∃ (p : Fin 512) (q : Fin 1024), i = ix2 p q := ⟨i 0, i 1, eq_ix2 i⟩
  refine (update_apply (xblk m c t) (mblk m c t) (wblk m c t) acc p q).trans ?_
  unfold addend
  refine congrArg (acc (ix2 p q) + ·) (Finset.sum_congr rfl fun kk _ => ?_)
  rw [x_block_apply m c t p kk, mw_block_apply m c t kk q]

/-- At the first point of a run the accumulator is reset: it ends at zero plus the point's addend, whatever it held. -/
theorem reset_step (c : Dev nD) (n : ℕ) (hb : n < cfg0.N) (acc : Vec Ideal S512x1024 .f32) (i : S512x1024.Idx)
    (h0 : n % 8 = 0) : scAt0_0 m c n hb acc i = 0 + addend m c n i := by
  have h1 : ¬n % 8 = 7 := by omega
  unfold scAt0_0
  rw [dif_pos h0, dif_neg h1]
  refine (congrFun (first_point (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))) i).trans ?_
  refine (update_at_point m c (⟨n, hb⟩ : Fin cfg0.N) (k0_pay1 (F := Ideal)) i).trans ?_
  rw [zero_block_apply]

/-- At every later point of a run the accumulator ends at what the point before left plus the point's addend. -/
theorem later_step (c : Dev nD) (n : ℕ) (hb : n < cfg0.N) (acc : Vec Ideal S512x1024 .f32) (i : S512x1024.Idx)
    (h0 : ¬n % 8 = 0) : scAt0_0 m c n hb acc i = acc i + addend m c n i := by
  unfold scAt0_0
  rw [dif_neg h0]
  by_cases h1 : n % 8 = 7
  · rw [dif_pos h1]
    refine (congrFun (last_point (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc) i).trans ?_
    exact update_at_point m c (⟨n, hb⟩ : Fin cfg0.N) acc i
  · rw [dif_neg h1]
    refine (congrFun (middle_point (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc) i).trans ?_
    exact update_at_point m c (⟨n, hb⟩ : Fin cfg0.N) acc i

/-! ## The accumulator after the last point of a run -/

/-- After the last point `t` of a run (`t % 8 = 7`) the accumulator holds zero plus the addends of the run's eight
    points `8·(t/8), …, 8·(t/8) + 7`. -/
theorem run_fold (c : Dev nD) (t : Fin cfg0.N) (h7 : t.val % 8 = 7) (i : S512x1024.Idx) :
    (outsAt0 m c t.val t.isLt).2 i = 0 + ∑ s ∈ Finset.range 8, addend m c (8 * (t.val / 8) + s) i := by
  rw [soutsAt0_0_eq m c t]
  have key : ∀ (j : ℕ) (_ : j = 7) (h : 8 * (t.val / 8) + j < cfg0.N),
      Pipeline.accAt (fun n h => scAt0_0 m c n h (VS0_0.read (Elt Ideal) VS0_0.junk)) (scAt0_0 m c) (8 * (t.val / 8)) j h i
        = 0 + ∑ s ∈ Finset.range 8, addend m c (8 * (t.val / 8) + s) i := by
    intro j hj h
    subst hj
    exact Pipeline.accAt_add_apply (fun n h => scAt0_0 m c n h (VS0_0.read (Elt Ideal) VS0_0.junk)) (scAt0_0 m c)
      (fun _ => 0) (addend m c) (8 * (t.val / 8)) 7
      (fun h i => reset_step m c _ h _ i (Nat.mul_mod_right 8 _))
      (fun n h acc i hlt hle => later_step m c n h acc i (by omega))
      7 le_rfl h i
  exact key _ h7 _

/-- The eight addends of a run sum to the whole contraction of the specification, at the entry's row and column of
    the full arrays. -/
theorem run_total (c : Dev nD) (t : Fin cfg0.N) (i : S512x1024.Idx)
    (hr : 512 * (t.val / 32) + (i 0).val < 4096) (hc : 1024 * (t.val / 8 % 4) + (i 1).val < 4096) :
    ∑ s ∈ Finset.range 8, addend m c (8 * (t.val / 8) + s) i
      = maskedLinear (xarr m c) (marr m c) (warr m c) (ix2 ⟨512 * (t.val / 32) + (i 0).val, hr⟩ ⟨1024 * (t.val / 8 % 4) + (i 1).val, hc⟩) := by
  have slices : ∑ s ∈ Finset.range 8, addend m c (8 * (t.val / 8) + s) i
      = ∑ s ∈ Finset.range 8, ∑ kk : Fin 1024,
          (fun k => xAt m c (512 * (t.val / 32) + (i 0).val) k * mwAt m c k (1024 * (t.val / 8 % 4) + (i 1).val)) (1024 * s + kk.val) := by
    refine Finset.sum_congr rfl fun s hs => ?_
    have hs8 : s < 8 := Finset.mem_range.mp hs
    unfold addend
    rw [show (8 * (t.val / 8) + s) / 32 = t.val / 32 by omega, show (8 * (t.val / 8) + s) % 8 = s by omega,
      show (8 * (t.val / 8) + s) / 8 % 4 = t.val / 8 % 4 by omega]
  refine slices.trans ((sum_8192_as_slices
    (fun k => xAt m c (512 * (t.val / 32) + (i 0).val) k * mwAt m c k (1024 * (t.val / 8 % 4) + (i 1).val))).trans ?_)
  unfold maskedLinear
  refine Finset.sum_congr rfl fun k _ => ?_
  have hk := k.isLt
  show xAt m c (512 * (t.val / 32) + (i 0).val) k.val * mwAt m c k.val (1024 * (t.val / 8 % 4) + (i 1).val) = _
  unfold xAt mwAt
  rw [dif_pos ⟨hr, hk⟩, dif_pos ⟨hk, hc⟩]

/-! ## The result array -/

/-- The specification at the argument arrays as the region finds them. -/
abbrev result (c : Dev nD) : Buf (Elt Ideal) ((c : Thread nD τ).loc main_v0) :=
  maskedLinear (xarr m c) (marr m c) (warr m c)

/-- At the last point of a run the output block is stored with the accumulator the point leaves. -/
theorem output_is_accumulator (c : Dev nD) (t : Fin cfg0.N) (h0 : ¬t.val % 8 = 0) (h7 : t.val % 8 = 7) :
    (outsAt0 m c t.val t.isLt).1 = (outsAt0 m c t.val t.isLt).2 := by
  rw [outsAt0_C m c t h0 h7]
  dsimp only
  exact (last_point_output (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2).trans
    (last_point (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2).symm

/-- What a flushing point writes back is its block of the specification: rows `512·(t/32) + p`, columns
    `1024·(t/8%4) + q`. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  have h0 : ¬t.val % 8 = 0 := by omega
  have hN : t.val < 256 := lt_of_lt_of_eq t.isLt (show cfg0.N = 256 from N_0)
  obtain ⟨-, -, -, -, -, -, e6, e7⟩ := block_indices t
  rw [flushed3 m c t, output_is_accumulator m c t h0 h7]
  funext j
  have hj0 : (j 0).val < 512 := (j 0).isLt
  have hj1 : (j 1).val < 1024 := (j 1).isLt
  have hr : 512 * (t.val / 32) + (j 0).val < 4096 := by omega
  have hc : 1024 * (t.val / 8 % 4) + (j 1).val < 4096 := by omega
  show (outsAt0 m c t.val t.isLt).2 j = result m c (((cfg0.win 3).blk t).view.emb j)
  rw [run_fold m c t h7 j, zero_add, run_total m c t j hr hc]
  show maskedLinear (xarr m c) (marr m c) (warr m c) _ = maskedLinear (xarr m c) (marr m c) (warr m c) _
  congr 1
  funext a
  apply Fin.ext
  match a with
  | ⟨0, _⟩ => show 512 * (t.val / 32) + (j 0).val = win0_3.index t (0 : Fin 2) * 512 + 1 * (j 0).val; omega
  | ⟨1, _⟩ => show 1024 * (t.val / 8 % 4) + (j 1).val = win0_3.index t (1 : Fin 2) * 1024 + 1 * (j 1).val; omega

/-- An entry of the result lies in point `t`'s output block iff each coordinate lies in the block's range. -/
theorem mem_output_block (t : Fin cfg0.N) (i : S4096x4096.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v0).slice (win0_3.rect t)).set ↔ _
  rw [View.set_slice_whole, Rect.mem_set_unit]
  exact Iff.rfl

/-- Every entry `(r, col)` of the result is in the block written back by the last point of the run of row tile
    `r / 512` and column tile `col / 1024`, the point `32·(r/512) + 8·(col/1024) + 7`. -/
theorem covered (i : S4096x4096.Idx) :
    ∃ t : Fin cfg0.N, (cfg0.win 3).flush t = true ∧ i ∈ ((cfg0.win 3).blk t).view.set := by
  have h0 : (i 0).val < 4096 := (i 0).isLt
  have h1 : (i 1).val < 4096 := (i 1).isLt
  have hN : cfg0.N = 256 := N_0
  have hlt : 32 * ((i 0).val / 512) + 8 * ((i 1).val / 1024) + 7 < cfg0.N := by rw [hN]; omega
  obtain ⟨-, -, -, -, -, -, e6, e7⟩ := block_indices ⟨_, hlt⟩
  have e6' : win0_3.index ⟨_, hlt⟩ (0 : Fin 2) = (32 * ((i 0).val / 512) + 8 * ((i 1).val / 1024) + 7) / 32 := e6
  have e7' : win0_3.index ⟨_, hlt⟩ (1 : Fin 2) = (32 * ((i 0).val / 512) + 8 * ((i 1).val / 1024) + 7) / 8 % 4 := e7
  refine ⟨⟨_, hlt⟩, (flush0_3 _).mpr (by show (32 * ((i 0).val / 512) + 8 * ((i 1).val / 1024) + 7) % 8 = 7; omega), ?_⟩
  rw [mem_output_block]
  intro a
  match a with
  | ⟨0, _⟩ => show win0_3.index ⟨_, hlt⟩ (0 : Fin 2) * 512 ≤ (i 0).val ∧ (i 0).val < win0_3.index ⟨_, hlt⟩ (0 : Fin 2) * 512 + 512; omega
  | ⟨1, _⟩ => show win0_3.index ⟨_, hlt⟩ (1 : Fin 2) * 1024 ≤ (i 1).val ∧ (i 1).val < win0_3.index ⟨_, hlt⟩ (1 : Fin 2) * 1024 + 1024; omega

/-- So the result array ends holding the specification. -/
theorem final (c : Dev nD) : (dats m 0 c).arrAt 3 cfg0.N = result m c :=
  (dats m 0 c).arrAt_eq_of_cover 3 (result m c) (flushed_eq m c) covered

/-- The kernel's run, read: the result at the masked linear layer of the argument arrays, the arguments unchanged. -/
theorem run : θ_run defs (onTc (τ := τ) (main (F := Ideal))) ⟨m, fun _ => 0, ρ⟩ fun r => ∀ c : Dev nD,
      r.2.mem ((c : Thread nD τ).loc main_v0)
        = maskedLinear (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Acc

end
-- ==== Proof.ReferenceValue.lean ====
/-
  The reference's result is the masked linear layer of the specification.

  The reference multiplies `mask` and `w` entry by entry and contracts `x` against that product over the whole
  axis of length 8192. Read at an output entry `(r, c)` this is the sum over `k` of `x[r, k] · (mask[k, c] · w[k, c])`:
  the left factor sits at row `r`, column `k`; the right factor at row `k`, column `c`.
-/
import proofs.«172079_j72696616452696_1_alg».proof.Proof.Gen.ReferenceIdeal.Read
import proofs.«172079_j72696616452696_1_alg».proof.Proof.MaskedLinear

noncomputable section

open scoped BigOperators

namespace Cert.MaskedLinear

open Idealize.ShloMosaic Idealize.ShloMosaic.ValueIdx Cert.ReferenceIdeal Cert.ReferenceIdeal.Read

/-- The reference's contraction at an entry has its left factor at `(r, k)` … -/
theorem left_factor_index (i : S4096x4096.Idx) (k : Fin 8192) : lidx_main_v1 i k = ix2 (n0 := 4096) (n1 := 8192) (i 0) k :=
  funext fun a => Fin.ext (by match a with | ⟨0, _⟩ => rfl | ⟨1, _⟩ => rfl)

/-- … and its right factor at `(k, c)`. -/
theorem right_factor_index (i : S4096x4096.Idx) (k : Fin 8192) : ridx_main_v1 i k = ix2 (n0 := 8192) (n1 := 4096) k (i 1) :=
  funext fun a => Fin.ext (by match a with | ⟨0, _⟩ => rfl | ⟨1, _⟩ => rfl)

/-- The reference's matrix product of `x` with the entrywise product `mask · w` is `maskedLinear x mask w`. -/
theorem reference_eq (x : (⟨S4096x8192, .f32⟩ : BufTy).Contents (Elt Ideal))
    (mk w : (⟨S8192x4096, .f32⟩ : BufTy).Contents (Elt Ideal)) :
    val_main_v1 (F := Ideal) x mk w = maskedLinear x mk w := by
  funext i
  rw [val_main_v1_apply]
  unfold maskedLinear
  refine Finset.sum_congr rfl fun k _ => ?_
  rw [left_factor_index, right_factor_index]
  rfl

end Cert.MaskedLinear

end
-- ==== Proof.lean ====
/-
  A masked linear layer: `y = x · (mask ∘ w)` with `x` of 4096 × 8192, `mask` and `w` of 8192 × 4096, the product
  `∘` entry by entry and `·` the matrix product; entry by entry, `y[r, c] = ∑ k < 8192, x[r, k] · (mask[k, c] · w[k, c])`.

  The reference forms `mask ∘ w` and contracts over all of `k` at once. The kernel tiles the result into 512 × 1024
  blocks and the contraction axis into eight slices of 1024; for each output block it zeroes an accumulator, adds one
  slice's partial product per grid point, and writes the accumulator out after the eighth. The narrowings to bf16 before
  the matrix unit are the identity over the extended reals. So the kernel's entry is `0 + s₀ + s₁ + … + s₇` with `sⱼ` the
  sum over slice `j`, and the reference's is the one sum over all 8192 indices: equal because addition of extended reals
  is commutative and associative, infinities included. Finiteness of the inputs is not used.

  The three frames: the two kernels' are the generated ones (the body run once per control case); the reference has no
  kernel, and its frame is its generated run with the result forgotten. The idealization rewrote no operation, so
  `preserves` states nothing. The kernel's value is in Proof/KernelValue.lean (over Proof/AccumulatorStep.lean and
  Proof/BlockProduct.lean), the reference's in Proof/ReferenceValue.lean, both against Proof/MaskedLinear.lean.
-/
import proofs.«172079_j72696616452696_1_alg».proof.Defs
import proofs.«172079_j72696616452696_1_alg».proof.Proof.Gen.Kernel
import proofs.«172079_j72696616452696_1_alg».proof.Proof.Gen.Kernel.Skeleton
import proofs.«172079_j72696616452696_1_alg».proof.Proof.Gen.Kernel.Launch
import proofs.«172079_j72696616452696_1_alg».proof.Proof.Gen.Kernel.Points
import proofs.«172079_j72696616452696_1_alg».proof.Proof.Gen.Kernel.Frame
import proofs.«172079_j72696616452696_1_alg».proof.Proof.Gen.KernelIdeal
import proofs.«172079_j72696616452696_1_alg».proof.Proof.Gen.KernelIdeal.Skeleton
import proofs.«172079_j72696616452696_1_alg».proof.Proof.Gen.KernelIdeal.Launch
import proofs.«172079_j72696616452696_1_alg».proof.Proof.Gen.KernelIdeal.Points
import proofs.«172079_j72696616452696_1_alg».proof.Proof.Gen.KernelIdeal.Frame
import proofs.«172079_j72696616452696_1_alg».proof.Proof.Gen.ReferenceIdeal
import proofs.«172079_j72696616452696_1_alg».proof.Proof.Gen.Pre_finite_inputs
import proofs.«172079_j72696616452696_1_alg».proof.Proof.Gen.KernelIdeal.Value
import proofs.«172079_j72696616452696_1_alg».proof.Proof.Gen.ReferenceIdeal.Run
import proofs.«172079_j72696616452696_1_alg».proof.Proof.Gen.ReferenceIdeal.Read
import proofs.«172079_j72696616452696_1_alg».proof.Proof.KernelValue
import proofs.«172079_j72696616452696_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is two host operations; its run, with the result forgotten, is its frame. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on `x`, `mask` and `w`, both programs end with the masked linear layer of those arrays:
    the kernel by its eight-slice accumulation, the reference by its one contraction. -/
theorem algebraic : Cert.algebraic_KernelIdeal_ReferenceIdeal := by
  intro m ρ m' ρ' _ hagree
  refine ⟨fun c => Cert.MaskedLinear.maskedLinear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v1_eq _ _ _).trans (Cert.MaskedLinear.reference_eq _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
